-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S128x128 .f32) (main_arg3 : FVec F S128 .f32) (main_arg4 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 8
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S1x128, .f32⟩
  | .hbm, ⟨6, _⟩ => ⟨S1x128, .f32⟩
  | .hbm, ⟨7, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S1x128, .f32⟩
  | .local _ .vmem, ⟨6, _⟩ => ⟨S400x128, .f32⟩
  | .local _ .vmem, ⟨7, _⟩ => ⟨S400x128, .f32⟩
  | .local _ .vmem, ⟨8, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v10 : BitVec 32 := Scalar.muli arg0 c400_i32
  let v11 : Index := Scalar.indexCast v10
  let c0_7 : Index := 0#32
  ![v11.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  h_S400x128 : 0 < S400x128.numel
  broadcasts_S1x128_S400x128 : S1x128.Broadcasts S400x128
  inb_S128x128_S128x128_0_0 : ∀ a, (![0, 0] : Fin 2 → Nat) a + S128x128.size a ≤ S128x128.size a
  h_S128x128 : 0 < S128x128.numel
  inb_S400x128_S400x128_0_0 : ∀ a, (![0, 0] : Fin 2 → Nat) a + S400x128.size a ≤ S400x128.size a
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S128x1 : Shape := ⟨2, ![128, 1]⟩
abbrev S1x128 : Shape := ⟨2, ![1, 128]⟩

abbrev nBuf : Space → Nat
  | .hbm => 33
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S10000x128, .f32⟩
  | .hbm, ⟨6, _⟩ => ⟨S_, .f32⟩
  | .hbm, ⟨7, _⟩ => ⟨S128, .f32⟩
  | .hbm, ⟨8, _⟩ => ⟨S128x128, .i32⟩
  | .hbm, ⟨9, _⟩ => ⟨S128x128, .i32⟩
  | .hbm, ⟨10, _⟩ => ⟨S_, .i32⟩
  | .hbm, ⟨11, _⟩ => ⟨S128x128, .i32⟩
  | .hbm, ⟨12, _⟩ => ⟨S128x128, .i32⟩
  | .hbm, ⟨13, _⟩ => ⟨S128x128, .i1⟩
  | .hbm, ⟨14, _⟩ => ⟨S128x1, .f32⟩
  | .hbm, ⟨15, _⟩ => ⟨S_, .f32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S128x128, .i32⟩
  | .hbm, ⟨20, _⟩ => ⟨S128x128, .i32⟩
  | .hbm, ⟨21, _⟩ => ⟨S_, .i32⟩
  | .hbm, ⟨22, _⟩ => ⟨S128x128, .i32⟩
  | .hbm, ⟨23, _⟩ => ⟨S128x128, .i32⟩
  | .hbm, ⟨24, _⟩ => ⟨S128x128, .i1⟩
  | .hbm, ⟨25, _⟩ => ⟨S128x128, .f32⟩
  | .hbm, ⟨26, _⟩ => ⟨S128x128, .f32⟩
  | .hbm, ⟨27, _⟩ => ⟨S10000x128, .f32⟩
  | .hbm, ⟨28, _⟩ => ⟨S10000x128, .f32⟩
  | .hbm, ⟨29, _⟩ => ⟨S10000x128, .f32⟩
  | .hbm, ⟨30, _⟩ => ⟨S1x128, .f32⟩
  | .hbm, ⟨31, _⟩ => ⟨S10000x128, .f32⟩
  | .hbm, ⟨32, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_c : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_cst_0 : Ref sig .tc := ⟨.hbm, 15, rfl⟩
abbrev main_call0_call0_v0 : Ref sig .tc := ⟨.hbm, 16, rfl⟩
abbrev main_call0_call0_v1 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩

abbrev nD : Nat := 1
abbrev τ : Topo := Topo.v7x

variable {F : FTy → Type} [FloatOps F]

class Facts₀ : Prop where
  pads_S128_S128_000 : S128.Pads (![0] : Fin 1 → Nat) ![0] ![0] S128
  h_S_ : 0 < S_.numel
  bcast_S_S128x128 : S_.BroadcastsInDim S128x128 (![] : Fin 0 → Fin S128x128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.LibDotRowsCols.lean ====
/-
  A product of an array of rows with an array of columns, read at one entry.

  For dimension numbers that contract the left operand's axis 1 with the right operand's axis 0, keep the left
  operand's axis 0 and the right operand's axis 1, and batch nothing — the plain product  l · w  of an [n × K] array
  with a [K × c] array — the operand indices at result entry (r, v) and contraction position q are (r, q) and (q, v).
  So both the accumulate-into-zero `tpu.matmul` and the host's `dot_general` are, at the ideal values, the entry's
  plain sum  ∑ q < K, l (r, q) · w (q, v)  over the shared axis: the same extended real whatever the number of rows of
  the left operand. This identifies a product computed a block of the left operand's rows at a time with the whole
  product.
-/
import Idealize.ShloMosaic.PureOps.Ideal.Laws
import Idealize.ShloMosaic.Lib.ValueIdx

noncomputable section

open scoped BigOperators

namespace Cert.Lib.DotRowsCols

open Idealize.ShloMosaic Idealize.ShloMosaic.ValueIdx

variable {n K c : Nat}

/-- Dimension numbers of a rows-by-columns product [n, K] × [K, c] → [n, c]: contract left axis 1 with right axis 0,
    result rows from the left operand's rows, result columns from the right operand's columns, no batch axis. -/
structure RowsCols (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsCols.rank_contr (h : RowsCols d) : d.contr.rank = 1 := by rw [d.rank_contr, h.lc]; rfl

/-- The contracted axis has the shared length K. -/
theorem RowsCols.size_contr (h : RowsCols d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsCols.lhs_row (h : RowsCols d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsCols.lhs_col (h : RowsCols d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem RowsCols.rhs_row (h : RowsCols d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column: its axis 1 is kept, and comes after the left operand's one
    kept axis among the result's axes. -/
theorem RowsCols.rhs_col (h : RowsCols d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, v). -/
theorem RowsCols.sum_eq (h : RowsCols d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (q, result column)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values (operands of any float formats). -/
theorem RowsCols.matmul_zero_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem RowsCols.dotGeneral_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.DotRowsCols

end
-- ==== Proof.KerPayload.lean ====
/-
  The kernel body's stored block, read at one entry, at the ideal values.

  At a grid point the body holds a block lb of 400 rows of the propagation array (all N columns), the whole feature
  array xw, the vector d as a [1, F] row dr, the 400 rows xr of the feature array that belong to the block, the weight
  array w, and the vector b as a [1, F] row br. It stores

      ((xr − (lb · xw) ⊙ (1 + dr)) · w) + br

  where both products accumulate into zero, the two changes of float format are the identity on extended reals, and the
  rows dr, br are laid along every row of the block. So entry (p, q) of the stored block is

      (∑ k < F, (xr (p, k) − (∑ n < N, lb (p, n) · xw (n, k)) · (1 + dr (0, k))) · w (k, q)) + br (0, q).
-/
import proofs.«142208_g9019431321742_cont_sun_c4_46_17_alg».proof.Proof.Gen.KernelIdeal.Skeleton
import proofs.«142208_g9019431321742_cont_sun_c4_46_17_alg».proof.Proof.LibDotRowsCols
import Idealize.ShloMosaic.Lib.Pipeline.Value
import Idealize.ShloMosaic.Lib.ValueLayout
import Idealize.ShloMosaic.Lib.IdealHost

noncomputable section

open scoped BigOperators

namespace Cert.KernelIdeal.Payload

open Cert.KernelIdeal Cert.KernelIdeal.Gen Idealize.ShloMosaic Idealize.ShloMosaic.ValueIdx Cert.Lib.DotRowsCols

/-- The first product's dimension numbers are those of a rows-by-columns product [400, N] × [N, F]. -/
theorem rowsCols_prop : RowsCols dot_S400x10000_S10000x128_S400x128_1_0_0_1_n_n := ⟨rfl, rfl, rfl, rfl, rfl, rfl⟩

/-- The second product's are those of [400, F] × [F, F]. -/
theorem rowsCols_out : RowsCols dot_S400x128_S128x128_S400x128_1_0_0_1_n_n := ⟨rfl, rfl, rfl, rfl, rfl, rfl⟩

/-- A product accumulated into zero, read at entry (r, v): the plain sum over the shared axis. -/
theorem matmul_at {n K c : Nat} {d : DotDims ⟨2, ![n, K]⟩ ⟨2, ![K, c]⟩ ⟨2, ![n, c]⟩} (h : RowsCols d) {φ₁ φ₂ : FTy}
    (l : FVec Ideal ⟨2, ![n, K]⟩ φ₁) (w : FVec Ideal ⟨2, ![K, c]⟩ φ₂) (r : Fin n) (v : Fin c) :
    matmul (F := Ideal) d none l w (constant ⟨2, ![n, c]⟩ .f32 0x00000000#32) (ix2 r v)
      = ∑ q : Fin K, l (ix2 r q) * w (ix2 q v) :=
  h.matmul_zero_apply none l w (ix2 r v)

/-- The scaling row 1 + dr, laid along every row of the block, at (p, k). -/
theorem scale_apply (dr : Vec Ideal S1x128 .f32) (p : Fin 400) (k : Fin 128) :
    broadcastTo S400x128 (addf (broadcast S1x128 (Scalar.ofBits (F := Ideal) .f32 0x3F800000#32)) dr)
      broadcasts_S1x128_S400x128 (ix2 p k)
      = 1 + dr (ix2 (0 : Fin 1) k) := by
  rw [broadcastTo_1b_ab_apply, addf_apply, broadcast_apply]
  show Ideal.ofBits .f32 0x3F800000#32 + _ = _
  rw [Ideal.ofBits_one_f32]

/-- Entry (p, q) of the block the body stores. -/
theorem pay2_apply (lb : Vec Ideal S400x10000 .f32) (xw : Vec Ideal S10000x128 .f32) (dr : Vec Ideal S1x128 .f32)
    (xr : Vec Ideal S400x128 .f32) (w : Vec Ideal S128x128 .f32) (br : Vec Ideal S1x128 .f32) (p : Fin 400) (q : Fin 128) :
    k0_pay2 (F := Ideal) lb xw dr xr w br (ix2 p q)
      = (∑ k : Fin 128, (xr (ix2 p k) - (∑ n : Fin 10000, lb (ix2 p n) * xw (ix2 n k)) * (1 + dr (ix2 (0 : Fin 1) k)))
          * w (ix2 k q)) + br (ix2 (0 : Fin 1) q) := by
  unfold k0_pay2
  simp only [shapeCast_self]
  rw [addf_apply, matmul_at rowsCols_out, broadcastTo_1b_ab_apply]
  refine congrArg (· + br (ix2 (0 : Fin 1) q)) (Finset.sum_congr rfl fun k _ => ?_)
  rw [truncf_apply, truncf_apply, subf_apply, mulf_apply, matmul_at rowsCols_prop, scale_apply]

end Cert.KernelIdeal.Payload

end
-- ==== Proof.Spec.lean ====
/-
  The layer as one function of its argument arrays, entry by entry, over the extended reals.

  For an [N, F] feature array x, an [N, N] propagation array l, an [F, F] weight array W and length-F vectors d and b
  (N = 10000, F = 128):

      propagated (r, k) = ∑ n < N, l (r, n) · x (n, k)
      scaledResidual (r, k) = x (r, k) − propagated (r, k) · (1 + d k)
      layer      (r, v) = (∑ k < F, scaledResidual (r, k) · W (k, v)) + b v

  and the one law that joins the two programs: a product with an array that vanishes off its main diagonal keeps, of
  each sum over the shared axis, only the diagonal term. It needs nothing of finiteness: an extended real times zero is
  zero, and adding zeros changes nothing.
-/
import Idealize.ShloMosaic.PureOps.Ideal
import Idealize.ShloMosaic.Lib.ValueIdx

noncomputable section

open scoped BigOperators

namespace Cert.AdaLayer

open Idealize.ShloMosaic Idealize.ShloMosaic.ValueIdx

/-- The feature array's shape [10000, 128], the propagation array's [10000, 10000], the weight array's [128, 128] and a
    feature vector's [128]. -/
abbrev SX : Shape := ⟨2, ![10000, 128]⟩
abbrev SL : Shape := ⟨2, ![10000, 10000]⟩
abbrev SW : Shape := ⟨2, ![128, 128]⟩
abbrev SV : Shape := ⟨1, ![128]⟩

/-- One entry of the propagated features l · x. -/
def propagated (l : SL.Idx → EReal) (x : SX.Idx → EReal) (r : Fin 10000) (k : Fin 128) : EReal :=
  ∑ n : Fin 10000, l (ix2 r n) * x (ix2 n k)

/-- One entry of the scaled residual x − (l · x) ⊙ (1 + d): feature k of the propagated row scaled by 1 + d k. -/
def scaledResidual (x : SX.Idx → EReal) (l : SL.Idx → EReal) (d : SV.Idx → EReal) (r : Fin 10000) (k : Fin 128) : EReal :=
  x (ix2 r k) - propagated l x r k * (1 + d (ix1 k))

/-- The layer's result: the scaled residual's rows times W, plus b along every row. -/
def layer (x : SX.Idx → EReal) (l : SL.Idx → EReal) (W : SW.Idx → EReal) (d b : SV.Idx → EReal) : SX.Idx → EReal :=
  fun j => (∑ k : Fin 128, scaledResidual x l d (j 0) k * W (ix2 k (j 1))) + b (ix1 (j 1))

/-- A sum against a column of an array that is zero off the diagonal is its diagonal term. -/
theorem sum_mul_diag {n : Nat} (e : Fin n → EReal) (M : Fin n → Fin n → EReal) (q : Fin n)
    (ho : ∀ p, p ≠ q → M p q = 0) : ∑ p : Fin n, e p * M p q = e q * M q q :=
  Finset.sum_eq_single q (fun p _ hp => by rw [ho p hp, mul_zero]) (fun h => absurd (Finset.mem_univ q) h)

end Cert.AdaLayer

end
-- ==== Proof.KerValue.lean ====
/-
  What the kernel's result array holds after the run: the layer of the argument arrays.

  The grid has 25 points; point t stages rows 400 t … 400 t + 399 of the propagation array (all columns), the whole
  feature array, the weight array, and the two vectors as [1, F] rows (host reshapes before the launch), and writes back
  rows 400 t … 400 t + 399 of the result. At the first point the body also stores a copy of the feature array in a
  scratch buffer that nothing reads; in both of the body's control cases the one store to the output block is the same
  payload of the same loads. The rows of the feature array the body loads at its own offset 400 t are the rows of the
  block it writes, so entry (p, q) of the block point t writes is the layer's entry (400 t + p, q); the 25 blocks tile
  the result array's rows, so the array after the run is the layer everywhere.
-/
import proofs.«142208_g9019431321742_cont_sun_c4_46_17_alg».proof.Proof.Gen.KernelIdeal.Value
import proofs.«142208_g9019431321742_cont_sun_c4_46_17_alg».proof.Proof.KerPayload
import proofs.«142208_g9019431321742_cont_sun_c4_46_17_alg».proof.Proof.Spec
import Idealize.ShloMosaic.Lib.Pipeline.Value
import Idealize.ShloMosaic.Lib.ValueLayout
import Idealize.ShloMosaic.Lib.StableHlo.Run
import Idealize.ShloMosaic.Lib.Tactic

noncomputable section

open scoped BigOperators

open Idealize.ShloMosaic Idealize.ShloMosaic.TcCoe Idealize.SL.Sem
open Idealize.ShloMosaic.Pipeline (Dat)

namespace Cert.KernelIdeal.KerValue

open Cert.KernelIdeal Cert.KernelIdeal.Gen Cert.KernelIdeal.Value Cert.KernelIdeal.Payload Cert.AdaLayer
open Idealize.ShloMosaic.ValueIdx

/-! ## The body's stored block, in both control cases -/

section Cases

variable {F : FTy → Type} [FloatOps F]

theorem hz : (![0, 0] : Fin 2 → Nat) = fun _ => 0 := funext fun a => by fin_cases a <;> rfl

/-- The 400 rows of the feature array the body loads at its own row offset. -/
abbrev rowsAt (i : grid0.Coords) (x1 : Vec F S10000x128 .f32) : Vec F S400x128 .f32 :=
  View.ld x1 (Rect.unit (s := S10000x128) (k0_off1 i) S400x128.size (k0_off1_inb i))

/-- At the first point (where the scratch copy is also stored) the output block is left at the payload of the loads. -/
theorem out_A (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S400x128 .f32) (harg6 : arg6.IsWhole) (arg7 : Memref sig .tc .vmem S10000x128 .bf16) (harg7 : arg7.IsWhole) (hc0 : cond0_0 i)
    (x0 : Vec F S400x10000 .f32) (x1 : Vec F S10000x128 .f32) (x2 : Vec F S128x128 .f32) (x3 : Vec F S1x128 .f32) (x4 : Vec F S1x128 .f32) :
    out0_A_5 c i arg1 harg1 arg2 harg2 arg3 harg3 arg4 harg4 arg5 harg5 arg6 harg6 arg7 harg7 hc0 x0 x1 x2 x3 x4 = k0_pay2 x0 x1 x3 (rowsAt i x1) x2 x4 := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  unfold kernelRun0_A
  dsimp only
  sl_unfold_words
  rw [View.canon_unit_zero hz]
  simp only [View.readAt_eq_ld, harg1.read_unread, harg2.read_unread, harg3.read_unread, harg4.read_unread, harg5.read_unread,
    View.ld_unit_zero (S := S400x10000) hz, View.ld_unit_zero (S := S10000x128) hz, View.ld_unit_zero (S := S128x128) hz,
    View.ld_unit_zero (S := S1x128) hz]
  rfl

/-- At every later point likewise. -/
theorem out_B (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S400x128 .f32) (harg6 : arg6.IsWhole) (arg7 : Memref sig .tc .vmem S10000x128 .bf16) (harg7 : arg7.IsWhole) (hc0 : ¬cond0_0 i)
    (x0 : Vec F S400x10000 .f32) (x1 : Vec F S10000x128 .f32) (x2 : Vec F S128x128 .f32) (x3 : Vec F S1x128 .f32) (x4 : Vec F S1x128 .f32) :
    out0_B_5 c i arg1 harg1 arg2 harg2 arg3 harg3 arg4 harg4 arg5 harg5 arg6 harg6 arg7 harg7 hc0 x0 x1 x2 x3 x4 = k0_pay2 x0 x1 x3 (rowsAt i x1) x2 x4 := by
  unfold out0_B_5
  rw [View.read_writes_eq_canon _ _ _ (cover0_B_5 c i arg1 harg1 arg2 harg2 arg3 harg3 arg4 harg4 arg5 harg5 arg6 harg6 arg7 harg7 hc0 x0 x1 x2 x3 x4)]
  unfold kernelRun0_B
  dsimp only
  sl_unfold_words
  rw [View.canon_unit_zero hz]
  simp only [View.readAt_eq_ld, harg1.read_unread, harg2.read_unread, harg3.read_unread, harg4.read_unread, harg5.read_unread,
    View.ld_unit_zero (S := S400x10000) hz, View.ld_unit_zero (S := S10000x128) hz, View.ld_unit_zero (S := S128x128) hz,
    View.ld_unit_zero (S := S1x128) hz]
  rfl

end Cases

/-! ## The blocks, read off the argument arrays -/

variable (m : (ℓ : Loc nD τ sig) → Buf (Elt Ideal) ℓ) (ρ : Dev nD → PrngReg)

/-- The printed index maps and the body's row offset, decided over the 25 points: the propagation array's and the result's
    blocks move down with the point, every other window stays at block (0, 0), and the body's own offset is 400 t. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ k0_off1 (grid0.coords t) (0 : Fin 2) = 400 * t.val ∧ k0_off1 (grid0.coords t) (1 : Fin 2) = 0 :=
  (by decide +kernel : ∀ t : Fin grid0.N, _)

/-- The two vectors as the region finds them: [1, F] rows of the argument vectors. -/
theorem V_dRow (c : Dev nD) :
    (V m c main_v0 : S1x128.Idx → EReal) = shapeCast S1x128 (m ((c : Thread nD τ).loc main_arg3)) shapeCasts_S128_S1x128 := by
  dsimp only [Gen.V, Gen.hostOps0]; after_results; rfl

theorem V_bRow (c : Dev nD) :
    (V m c main_v1 : S1x128.Idx → EReal) = shapeCast S1x128 (m ((c : Thread nD τ).loc main_arg4)) shapeCasts_S128_S1x128 := by
  dsimp only [Gen.V, Gen.hostOps0]; after_results; rfl

/-- Point t's block of the propagation array at (p, n) is the array at row 400 t + p, column n. -/
theorem lblk_apply (c : Dev nD) (t : Fin cfg0.N) (p : Fin 400) (n : Fin 10000) (r : Fin 10000) (hr : r.val = 400 * t.val + p.val) :
    (iblk m c 0 t : Vec Ideal S400x10000 .f32) (ix2 p n) = m ((c : Thread nD τ).loc main_arg1) (ix2 r n) := by
  obtain ⟨e0, e1, -⟩ := idx_facts t
  unfold iblk
  rw [View.read_apply]
  show V m c main_arg1 _ = _
  rw [V_main_arg1]
  refine congrArg (m ((c : Thread nD τ).loc main_arg1)) (funext fun a => Fin.ext ?_)
  match a with
  | ⟨0, _⟩ => show win0_0.index t (0 : Fin 2) * 400 + 1 * p.val = r.val; omega
  | ⟨1, _⟩ => show win0_0.index t (1 : Fin 2) * 10000 + 1 * n.val = n.val; omega

/-- The feature array's one block is the array. -/
theorem xblk_apply (c : Dev nD) (t : Fin cfg0.N) (n : Fin 10000) (k : Fin 128) :
    (iblk m c 1 t : Vec Ideal S10000x128 .f32) (ix2 n k) = m ((c : Thread nD τ).loc main_arg0) (ix2 n k) := by
  obtain ⟨-, -, e0, e1, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_1.index t (0 : Fin 2) * 10000 + 1 * n.val = n.val; omega
  | ⟨1, _⟩ => show win0_1.index t (1 : Fin 2) * 128 + 1 * k.val = k.val; omega

/-- The weight array's one block is the array. -/
theorem wblk_apply (c : Dev nD) (t : Fin cfg0.N) (k q : Fin 128) :
    (iblk m c 2 t : Vec Ideal S128x128 .f32) (ix2 k q) = m ((c : Thread nD τ).loc main_arg2) (ix2 k q) := by
  obtain ⟨-, -, -, -, e0, e1, -⟩ := idx_facts t
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- The scaling vector's row block at (0, k) is the vector at k. -/
theorem dblk_apply (c : Dev nD) (t : Fin cfg0.N) (k : Fin 128) :
    (iblk m c 3 t : Vec Ideal S1x128 .f32) (ix2 (0 : Fin 1) k) = m ((c : Thread nD τ).loc main_arg3) (ix1 k) := by
  obtain ⟨-, -, -, -, -, -, e0, e1, -⟩ := idx_facts t
  unfold iblk
  rw [View.read_apply]
  show (V m c main_v0 : S1x128.Idx → EReal) _ = _
  rw [V_dRow, ← shapeCast_a_1a_apply (m ((c : Thread nD τ).loc main_arg3)) shapeCasts_S128_S1x128 (0 : Fin 1) k]
  refine congrArg _ (funext fun a => Fin.ext ?_)
  match a with
  | ⟨0, _⟩ => show win0_3.index t (0 : Fin 2) * 1 + 1 * 0 = 0; omega
  | ⟨1, _⟩ => show win0_3.index t (1 : Fin 2) * 128 + 1 * k.val = k.val; omega

/-- The bias vector's row block at (0, q) is the vector at q. -/
theorem bblk_apply (c : Dev nD) (t : Fin cfg0.N) (q : Fin 128) :
    (iblk m c 4 t : Vec Ideal S1x128 .f32) (ix2 (0 : Fin 1) q) = m ((c : Thread nD τ).loc main_arg4) (ix1 q) := by
  obtain ⟨-, -, -, -, -, -, -, -, e0, e1, -⟩ := idx_facts t
  unfold iblk
  rw [View.read_apply]
  show (V m c main_v1 : S1x128.Idx → EReal) _ = _
  rw [V_bRow, ← shapeCast_a_1a_apply (m ((c : Thread nD τ).loc main_arg4)) shapeCasts_S128_S1x128 (0 : Fin 1) q]
  refine congrArg _ (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-- The rows the body loads at its own offset, at (p, k): the feature array at row 400 t + p. -/
theorem rowsAt_apply (t : Fin cfg0.N) (x1 : Vec Ideal S10000x128 .f32) (p : Fin 400) (k : Fin 128) (r : Fin 10000)
    (hr : r.val = 400 * t.val + p.val) : rowsAt (grid0.coords t) x1 (ix2 p k) = x1 (ix2 r k) := by
  obtain ⟨-, -, -, -, -, -, -, -, -, -, -, -, e0, e1⟩ := idx_facts t
  refine congrArg x1 (funext fun a => Fin.ext ?_)
  match a with
  | ⟨0, _⟩ => show k0_off1 (grid0.coords t) (0 : Fin 2) + 1 * p.val = r.val; omega
  | ⟨1, _⟩ => show k0_off1 (grid0.coords t) (1 : Fin 2) + 1 * k.val = k.val; omega

/-! ## The result array -/

/-- The layer of core c's argument arrays. -/
abbrev result (c : Dev nD) : S10000x128.Idx → EReal :=
  layer (m ((c : Thread nD τ).loc main_arg0)) (m ((c : Thread nD τ).loc main_arg1)) (m ((c : Thread nD τ).loc main_arg2))
    (m ((c : Thread nD τ).loc main_arg3)) (m ((c : Thread nD τ).loc main_arg4))

/-- The block the body stores at point t, as the payload of the point's blocks. -/
abbrev stored (c : Dev nD) (t : Fin cfg0.N) : Vec Ideal S400x128 .f32 :=
  k0_pay2 (F := Ideal) (iblk m c 0 t) (iblk m c 1 t) (iblk m c 3 t) (rowsAt (grid0.coords t) (iblk m c 1 t)) (iblk m c 2 t) (iblk m c 4 t)

/-- What the output's staging buffer holds after the body at point t, in either control case. -/
theorem outsAt_eq (c : Dev nD) (t : Fin cfg0.N) : outsAt0 m c t.val t.isLt = stored m c t := by
  by_cases h0 : t.val % 25 = 0
  · rw [outsAt0_A m c t h0]
    exact out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)
  · rw [outsAt0_B m c t h0]
    exact out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t)

/-- Entry (p, q) of the block stored at point t is the layer's entry at row 400 t + p, column q. -/
theorem stored_apply (c : Dev nD) (t : Fin cfg0.N) (p : Fin 400) (q : Fin 128) (r : Fin 10000)
    (hr : r.val = 400 * t.val + p.val) : stored m c t (ix2 p q) = result m c (ix2 r q) := by
  show k0_pay2 (F := Ideal) (iblk m c 0 t) (iblk m c 1 t) (iblk m c 3 t) (rowsAt (grid0.coords t) (iblk m c 1 t)) (iblk m c 2 t) (iblk m c 4 t) (ix2 p q) = _
  rw [pay2_apply]
  simp only [fun k => rowsAt_apply t (iblk m c 1 t) p k r hr, fun n => lblk_apply m c t p n r hr, xblk_apply, wblk_apply,
    dblk_apply, bblk_apply]
  rfl

/-- WHAT POINT t WRITES BACK is block t of the layer. -/
theorem flushed_eq (c : Dev nD) (t : Fin cfg0.N) :
    (dats m 0 c).flushed 5 t = ((cfg0.win 5).blk t).view.read (Elt Ideal) (result m c) := by
  obtain ⟨-, -, -, -, -, -, -, -, -, -, e0, e1, -⟩ := idx_facts t
  rw [flushed5, outsAt_eq]
  show (stored m c t : S400x128.Idx → EReal) = fun y : S400x128.Idx => result m c (((cfg0.win 5).blk t).view.emb y)
  funext y
  obtain ⟨p, q, rfl⟩ : ∃ (p : Fin 400) (q : Fin 128), y = ix2 p q := ⟨y 0, y 1, eq_ix2 y⟩
  have hN : cfg0.N = 25 := N_0
  have hr : 400 * t.val + p.val < 10000 := by have := t.isLt; have := p.isLt; omega
  rw [stored_apply m c t p q ⟨400 * t.val + p.val, hr⟩ rfl]
  refine congrArg (result m c) (funext fun a => Fin.ext ?_)
  match a with
  | ⟨0, _⟩ => show 400 * t.val + p.val = win0_5.index t (0 : Fin 2) * 400 + 1 * p.val; omega
  | ⟨1, _⟩ => show q.val = win0_5.index t (1 : Fin 2) * 128 + 1 * q.val; omega

/-- An index of the result array is in point t's block iff each coordinate is in the block's range on its axis. -/
theorem mem_blk (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_v2).slice (win0_5.rect t)).set ↔ _
  rw [View.set_slice_whole, Rect.mem_set_unit]
  exact Iff.rfl

/-- The 25 blocks of 400 rows cover the result array: row r is in the block of point r / 400. -/
theorem cover (i : S10000x128.Idx) : ∃ t : Fin cfg0.N, (cfg0.win 5).flush t = true ∧ i ∈ ((cfg0.win 5).blk t).view.set := by
  have hN : cfg0.N = 25 := N_0
  have hi0 : (i 0).val < 10000 := (i 0).isLt
  have hi1 : (i 1).val < 128 := (i 1).isLt
  let t : Fin cfg0.N := ⟨(i 0).val / 400, by rw [hN]; omega⟩
  obtain ⟨-, -, -, -, -, -, -, -, -, -, e0, e1, -⟩ := idx_facts t
  have ht : t.val = (i 0).val / 400 := rfl
  refine ⟨t, flush0_5 t, ?_⟩
  rw [mem_blk]
  intro a
  match a with
  | ⟨0, _⟩ => show win0_5.index t (0 : Fin 2) * 400 ≤ (i 0).val ∧ (i 0).val < win0_5.index t (0 : Fin 2) * 400 + 400; omega
  | ⟨1, _⟩ => show win0_5.index t (1 : Fin 2) * 128 ≤ (i 1).val ∧ (i 1).val < win0_5.index t (1 : Fin 2) * 128 + 128; omega

/-- So the result array ends holding the layer of the argument arrays. -/
theorem final (c : Dev nD) : (dats m 0 c).arrAt 5 cfg0.N = result m c :=
  (dats m 0 c).arrAt_eq_of_cover 5 (result m c) (fun t _ => flushed_eq m c t) cover

/-- The run, read: the result array at the layer of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.KerValue

end
-- ==== Proof.RefRun.lean ====
/-
  The reference program as a straight line of host operations, and its run.

  The reference computes, for an [N, F] feature array x, an [N, N] propagation array l, an [F, F] weight array W and
  two length-F vectors d and b (N = 10000, F = 128):

      e1  = l · x                          (rows by columns)
      M   = diag(d) + I                    (an F × F array: the mask "row = column" selects d's entry against zero,
                                            and the same mask, converted to a float, is the identity)
      e2  = e1 · M
      out = (x - e2) · W + b               (b laid along every row)

  The two helper functions it calls (the diagonal's construction and the selection inside it) are listed inline at
  their call sites over the buffers the call names, so @main is one list of 28 operations. Every weakly fair execution
  terminates with the result buffer at the operations' composed term of the argument arrays, the arguments unchanged.
-/
import proofs.«142208_g9019431321742_cont_sun_c4_46_17_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The mask of the main diagonal of an F × F array: the row coordinate (plus a zero word) equals the column coordinate. -/
def diagMask : IVec S128x128 1 :=
  cmpi .eq (addi (iotaInDim S128x128 32 0) (broadcastInDim S128x128 ![] bcast_S_S128x128 (constantI S_ 32 0#32)))
    (iotaInDim S128x128 32 1)

/-- diag(d) + I as the reference builds it: on the mask d's entry of that row, elsewhere zero; plus the mask as a float. -/
def scaleMat (d : FVec F S128 .f32) : FVec F S128x128 .f32 :=
  addf
    (select diagMask
      (broadcastInDim S128x128 ![0, 1] bcast_S128x1_S128x128_0_1
        (broadcastInDim S128x1 ![0] bcast_S128_S128x1_0
          (pad S128 ![0] ![0] ![0] d (constant (F := F) S_ .f32 0x00000000#32) pads_S128_S128_000 h_S_)))
      (broadcastInDim S128x128 ![] bcast_S_S128x128 (constant (F := F) S_ .f32 0x00000000#32)))
    (uitofp .f32 diagMask)

/-- The reference's result as one term of its five argument arrays. -/
def refOut (x : FVec F S10000x128 .f32) (l : FVec F S10000x10000 .f32) (W : FVec F S128x128 .f32)
    (d b : FVec F S128 .f32) : FVec F S10000x128 .f32 :=
  addf
    (Host.dotGeneral dot_S10000x128_S128x128_S10000x128_1_0_0_1_n_n none
      (subf x
        (Host.dotGeneral dot_S10000x128_S128x128_S10000x128_1_0_0_1_n_n none
          (Host.dotGeneral dot_S10000x10000_S10000x128_S10000x128_1_0_0_1_n_n none l x) (scaleMat d)))
      W)
    (broadcastInDim S10000x128 ![0, 1] bcast_S1x128_S10000x128_0_1 (broadcastInDim S1x128 ![1] bcast_S128_S1x128_1 b))

/-- @main's 28 operations, in order, the two calls unfolded over their buffer records. -/
abbrev ops : List (HloOp τ sig (Elt F)) :=
  [ binary main_arg1 main_arg0 main_v0 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    TRef.nullary main_call0.cst (constant S_ .f32 0x00000000#32),
    TRef.binary (.of main_arg3) main_call0.cst main_call0.v0 (fun x v => pad S128 ![0] ![0] ![0] x v pads_S128_S128_000 h_S_),
    TRef.nullary main_call0.v1 (iotaInDim S128x128 32 0),
    TRef.nullary main_call0.v2 (iotaInDim S128x128 32 1),
    TRef.nullary main_call0.c (constantI S_ 32 0#32),
    TRef.unary main_call0.c main_call0.v3 (broadcastInDim S128x128 ![] bcast_S_S128x128),
    TRef.binary main_call0.v1 main_call0.v3 main_call0.v4 addi,
    TRef.binary main_call0.v4 main_call0.v2 main_call0.v5 (cmpi .eq),
    TRef.unary main_call0.v0 main_call0.v6 (broadcastInDim S128x1 ![0] bcast_S128_S128x1_0),
    TRef.nullary main_call0.cst_0 (constant S_ .f32 0x00000000#32),
    TRef.unary main_call0.v6 main_call0.call0.v0 (broadcastInDim S128x128 ![0, 1] bcast_S128x1_S128x128_0_1),
    TRef.unary main_call0.cst_0 main_call0.call0.v1 (broadcastInDim S128x128 ![] bcast_S_S128x128),
    TRef.ternary main_call0.v5 main_call0.call0.v0 main_call0.call0.v1 main_call0.call0.v2 select,
    nullary main_v2 (iotaInDim S128x128 32 0),
    nullary main_v3 (iotaInDim S128x128 32 1),
    nullary main_c (constantI S_ 32 0#32),
    unary main_c main_v4 (broadcastInDim S128x128 ![] bcast_S_S128x128 : (⟨S_, .i32⟩ : BufTy).Contents (Elt F) → (⟨S128x128, .i32⟩ : BufTy).Contents (Elt F)),
    binary main_v2 main_v4 main_v5 (addi : (⟨S128x128, .i32⟩ : BufTy).Contents (Elt F) → (⟨S128x128, .i32⟩ : BufTy).Contents (Elt F) → (⟨S128x128, .i32⟩ : BufTy).Contents (Elt F)),
    binary main_v5 main_v3 main_v6 (cmpi .eq : (⟨S128x128, .i32⟩ : BufTy).Contents (Elt F) → (⟨S128x128, .i32⟩ : BufTy).Contents (Elt F) → (⟨S128x128, .i1⟩ : BufTy).Contents (Elt F)),
    unary main_v6 main_v7 (uitofp .f32 : (⟨S128x128, .i1⟩ : BufTy).Contents (Elt F) → (⟨S128x128, .f32⟩ : BufTy).Contents (Elt F)),
    binary main_v1 main_v7 main_v8 (addf : (⟨S128x128, .f32⟩ : BufTy).Contents (Elt F) → (⟨S128x128, .f32⟩ : BufTy).Contents (Elt F) → (⟨S128x128, .f32⟩ : BufTy).Contents (Elt F)),
    binary main_v0 main_v8 main_v9 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg0 main_v9 main_v10 (subf : (⟨S10000x128, .f32⟩ : BufTy).Contents (Elt F) → (⟨S10000x128, .f32⟩ : BufTy).Contents (Elt F) → (⟨S10000x128, .f32⟩ : BufTy).Contents (Elt F)),
    binary main_v10 main_arg2 main_v11 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg4 main_v12 (broadcastInDim S1x128 ![1] bcast_S128_S1x128_1 : (⟨S128, .f32⟩ : BufTy).Contents (Elt F) → (⟨S1x128, .f32⟩ : BufTy).Contents (Elt F)),
    unary main_v12 main_v13 (broadcastInDim S10000x128 ![0, 1] bcast_S1x128_S10000x128_0_1 : (⟨S1x128, .f32⟩ : BufTy).Contents (Elt F) → (⟨S10000x128, .f32⟩ : BufTy).Contents (Elt F)),
    binary main_v11 main_v13 main_v14 (addf : (⟨S10000x128, .f32⟩ : BufTy).Contents (Elt F) → (⟨S10000x128, .f32⟩ : BufTy).Contents (Elt F) → (⟨S10000x128, .f32⟩ : BufTy).Contents (Elt F)) ]

set_option maxRecDepth 1024 in
/-- @main is that straight line: the helper functions unfolded at their calls, sequencing re-associated. -/
theorem main_eq (c : Dev nD) : main (F := F) c = seq ops := by
  simp only [main, fn_diag.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., binary_bufs_sub .., nullary_bufs_sub .., nullary_bufs_sub .., nullary_bufs_sub ..,
    unary_bufs_sub .., binary_bufs_sub .., binary_bufs_sub .., unary_bufs_sub .., nullary_bufs_sub .., unary_bufs_sub ..,
    unary_bufs_sub .., ternary_bufs_sub .., nullary_bufs_sub .., nullary_bufs_sub .., nullary_bufs_sub .., unary_bufs_sub ..,
    binary_bufs_sub .., binary_bufs_sub .., unary_bufs_sub .., binary_bufs_sub .., binary_bufs_sub .., binary_bufs_sub ..,
    binary_bufs_sub .., unary_bufs_sub .., unary_bufs_sub .., binary_bufs_sub ..⟩

/-- The fold of the operations at the result buffer is `refOut` of the argument buffers. -/
theorem out_eq (V : Valuation τ sig (Elt F)) :
    after ops V (main_v14 : DevRef τ sig)
      = refOut (V (main_arg0 : DevRef τ sig)) (V (main_arg1 : DevRef τ sig)) (V (main_arg2 : DevRef τ sig))
          (V (main_arg3 : DevRef τ sig)) (V (main_arg4 : DevRef τ sig)) := by
  after_results
  rfl

theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results
theorem arg3_eq (V : Valuation τ sig (Elt F)) : after ops V (main_arg3 : DevRef τ sig) = V (main_arg3 : DevRef τ sig) := by
  after_results
theorem arg4_eq (V : Valuation τ sig (Elt F)) : after ops V (main_arg4 : DevRef τ sig) = V (main_arg4 : DevRef τ sig) := by
  after_results

/-- On every device, for any float values, from any memory with zero counters: every weakly fair execution of @main
    terminates with the result at `refOut` of the launch contents of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14)
          = refOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v14).trans (out_eq _),
      (h c main_arg0).trans (arg0_eq _), (h c main_arg1).trans (arg1_eq _), (h c main_arg2).trans (arg2_eq _),
      (h c main_arg3).trans (arg3_eq _), (h c main_arg4).trans (arg4_eq _)⟩)
    (run_seq scopedRefs_eq scopedSems_eq defs main (fun _ => ops) main_eq (fun _ => ops_sub) m ρ)

end Cert.ReferenceIdeal.RefRun

end
-- ==== Proof.RefValue.lean ====
/-
  The reference's result term, at the ideal values, is the layer.

  Entry by entry: the scaling array the reference builds is zero off the main diagonal and d + 1 on it (the mask
  "row = column", compared as 32-bit words of coordinates below 128, selects d's entry against zero; the same mask as a
  float is 1 or 0), so the product of the propagated features with it keeps of each sum only the diagonal term,
  propagated (r, k) · (d k + 1). The three products are plain sums over the shared axis, and the bias row is b's entry of
  the column. What remains is the layer's own formula with d + 1 written 1 + d.
-/
import proofs.«142208_g9019431321742_cont_sun_c4_46_17_alg».proof.Proof.RefRun
import proofs.«142208_g9019431321742_cont_sun_c4_46_17_alg».proof.Proof.Spec
import proofs.«142208_g9019431321742_cont_sun_c4_46_17_alg».proof.Proof.LibDotRowsCols
import Idealize.ShloMosaic.Lib.Pipeline.Value
import Idealize.ShloMosaic.Lib.KernelVsHost
import Idealize.ShloMosaic.Lib.IdealHost
import Idealize.ShloMosaic.Lib.StableHlo.Predicate

noncomputable section

open scoped BigOperators

namespace Cert.ReferenceIdeal.RefValue

open Cert.ReferenceIdeal Cert.ReferenceIdeal.Gen Cert.ReferenceIdeal.RefRun Idealize.ShloMosaic Idealize.ShloMosaic.ValueIdx
open Cert.Lib.DotRowsCols Cert.AdaLayer

/-- The propagation product's dimension numbers are those of a rows-by-columns product [N, N] × [N, F]. -/
theorem rowsCols_prop : RowsCols dot_S10000x10000_S10000x128_S10000x128_1_0_0_1_n_n := ⟨rfl, rfl, rfl, rfl, rfl, rfl⟩

/-- The two feature products' are those of [N, F] × [F, F]. -/
theorem rowsCols_feat : RowsCols dot_S10000x128_S128x128_S10000x128_1_0_0_1_n_n := ⟨rfl, rfl, rfl, rfl, rfl, rfl⟩

/-- The host's product read at entry (r, v): the plain sum over the shared axis. -/
theorem dotGeneral_at {n K c : Nat} {d : DotDims ⟨2, ![n, K]⟩ ⟨2, ![K, c]⟩ ⟨2, ![n, c]⟩} (h : RowsCols d) {φ₁ φ₂ : FTy}
    (l : FVec Ideal ⟨2, ![n, K]⟩ φ₁) (w : FVec Ideal ⟨2, ![K, c]⟩ φ₂) (r : Fin n) (v : Fin c) :
    Host.dotGeneral (F := Ideal) d none l w (ix2 r v) = ∑ q : Fin K, l (ix2 r q) * w (ix2 q v) :=
  h.dotGeneral_apply none l w (ix2 r v)

/-- The diagonal mask's bit at (p, q): set exactly when p = q (coordinates below 128 are distinct as 32-bit words). -/
theorem diagMask_apply (p q : Fin 128) : diagMask (ix2 p q) = if p = q then 1#1 else 0#1 := by
  show IntOp.cmpi .eq (IntOp.addi (BitVec.ofNat 32 p.val) 0#32) (BitVec.ofNat 32 q.val) = _
  by_cases h : p = q
  · subst h
    rw [if_pos rfl]
    exact StableHlo.Predicate.cmpi_eq_iff.mpr (by simp [IntOp.addi])
  · rw [if_neg h]
    refine eq_zero_of_ne_one fun h1 => h (Fin.ext ?_)
    have h2 := congrArg BitVec.toNat (StableHlo.Predicate.cmpi_eq_iff.mp h1)
    have hp := p.isLt
    have hq := q.isLt
    simp only [IntOp.addi, BitVec.add_zero, BitVec.toNat_ofNat] at h2
    omega

/-- A vector laid along the rows of an F × F array (first as an [F, 1] column, then across the columns) reads, at (p, q),
    its entry p. -/
theorem colBcast_apply {α : Type} (v : S128.Idx → α) (p q : Fin 128) :
    broadcastInDim S128x128 ![0, 1] bcast_S128x1_S128x128_0_1 (broadcastInDim S128x1 ![0] bcast_S128_S128x1_0 v) (ix2 p q)
      = v (ix1 p) := by
  rw [broadcastInDim_apply _ _ _ (ix2 p q) (ix2 p (0 : Fin 1)) (fun a => by match a with | ⟨0, _⟩ => rfl | ⟨1, _⟩ => rfl)]
  exact broadcastInDim_apply _ _ v (ix2 p (0 : Fin 1)) (ix1 p) (fun a => by match a with | ⟨0, _⟩ => rfl)

/-- A vector laid along every row of an [N, F] array (first as a [1, F] row, then down the rows) reads, at (r, v), its
    entry v. -/
theorem rowBcast_apply {α : Type} (b : S128.Idx → α) (r : Fin 10000) (v : Fin 128) :
    broadcastInDim S10000x128 ![0, 1] bcast_S1x128_S10000x128_0_1 (broadcastInDim S1x128 ![1] bcast_S128_S1x128_1 b) (ix2 r v)
      = b (ix1 v) := by
  rw [broadcastInDim_apply _ _ _ (ix2 r v) (ix2 (0 : Fin 1) v) (fun a => by match a with | ⟨0, _⟩ => rfl | ⟨1, _⟩ => rfl)]
  exact broadcastInDim_apply _ _ b (ix2 (0 : Fin 1) v) (ix1 v) (fun a => by match a with | ⟨0, _⟩ => rfl)

/-- A pad that adds nothing is the operand. -/
theorem pad_none_apply {α : Type} (d : S128.Idx → α) (z : S_.Idx → α) (p : Fin 128) :
    pad S128 ![0] ![0] ![0] d z pads_S128_S128_000 h_S_ (ix1 p) = d (ix1 p) :=
  pad_apply_of_inside _ _ _ d z _ _ (ix1 p) (ix1 p) (fun a => by match a with | ⟨0, _⟩ => simp)

/-- The scaling array at (p, q): d p + 1 on the diagonal, zero off it. -/
theorem scaleMat_apply (d : FVec Ideal S128 .f32) (p q : Fin 128) :
    scaleMat (F := Ideal) d (ix2 p q) = if p = q then d (ix1 p) + 1 else 0 := by
  unfold scaleMat
  rw [addf_apply, select_apply]
  show Scalar.select (diagMask (ix2 p q)) _ _ + (((diagMask (ix2 p q)).toNat : ℝ) : EReal) = _
  rw [diagMask_apply]
  by_cases h : p = q
  · rw [if_pos h, if_pos h, select_one, colBcast_apply, pad_none_apply]
    norm_num
  · rw [if_neg h, if_neg h, select_zero, broadcastInDim_scalar_apply, constant_apply, Ideal.ofBits_zero_f32]
    norm_num

/-- The reference's result term is the layer of its argument arrays. -/
theorem refOut_eq (x : FVec Ideal S10000x128 .f32) (l : FVec Ideal S10000x10000 .f32) (W : FVec Ideal S128x128 .f32)
    (d b : FVec Ideal S128 .f32) : refOut (F := Ideal) x l W d b = layer x l W d b := by
  funext j
  obtain ⟨r, v, rfl⟩ : ∃ (r : Fin 10000) (v : Fin 128), j = ix2 r v := ⟨j 0, j 1, eq_ix2 j⟩
  unfold refOut layer
  rw [addf_apply, dotGeneral_at rowsCols_feat, rowBcast_apply]
  refine congrArg (· + b (ix1 v)) (Finset.sum_congr rfl fun k _ => ?_)
  refine congrArg (· * W (ix2 k v)) ?_
  show subf x _ (ix2 r k) = scaledResidual x l d r k
  rw [subf_apply, dotGeneral_at rowsCols_feat]
  unfold scaledResidual
  refine congrArg (x (ix2 r k) - ·) ?_
  show ∑ p : Fin 128, Host.dotGeneral _ none l x (ix2 r p) * scaleMat d (ix2 p k) = _
  rw [sum_mul_diag (fun p => Host.dotGeneral dot_S10000x10000_S10000x128_S10000x128_1_0_0_1_n_n none l x (ix2 r p))
    (fun p k => scaleMat (F := Ideal) d (ix2 p k)) k (fun p hp => by rw [scaleMat_apply, if_neg hp])]
  rw [scaleMat_apply, if_pos rfl, dotGeneral_at rowsCols_prop, add_comm (d (ix1 k)) 1]
  rfl

end Cert.ReferenceIdeal.RefValue

end
-- ==== Proof.lean ====
/-
  The kernel computes one graph layer  out = (x − (l · x) ⊙ (1 + d)) · W + b  for an [N, F] feature array x, a dense
  [N, N] propagation array l, an [F, F] weight array W and length-F vectors d and b (N = 10000, F = 128), a block of
  400 rows of l at a time: each of 25 grid points multiplies its rows of l by the whole of x, scales feature k of the
  product by 1 + d k, subtracts from its own rows of x, multiplies by W and adds b. The reference computes the same
  with the scaling written as a product with the F × F array diag(d) + I.

  Over the extended reals the two agree entry by entry: changes of float format are the identity, every product is the
  plain sum over its shared axis, a row block of l · x is the rows of the whole product, and a product with an array
  that is zero off its diagonal keeps only the diagonal term (an extended real times zero is zero), which is the
  scaling by d k + 1 = 1 + d k. No step needs the inputs finite.

  The kernel's frames are the generated ones; the reference's frame is its run with the result dropped; the ideal pass
  rewrote nothing, so the kernel's idealization is its own text.
-/
import proofs.«142208_g9019431321742_cont_sun_c4_46_17_alg».proof.Defs
import proofs.«142208_g9019431321742_cont_sun_c4_46_17_alg».proof.Proof.Gen.Kernel
import proofs.«142208_g9019431321742_cont_sun_c4_46_17_alg».proof.Proof.Gen.Kernel.Frame
import proofs.«142208_g9019431321742_cont_sun_c4_46_17_alg».proof.Proof.Gen.KernelIdeal
import proofs.«142208_g9019431321742_cont_sun_c4_46_17_alg».proof.Proof.Gen.KernelIdeal.Frame
import proofs.«142208_g9019431321742_cont_sun_c4_46_17_alg».proof.Proof.Gen.ReferenceIdeal
import proofs.«142208_g9019431321742_cont_sun_c4_46_17_alg».proof.Proof.Gen.Pre_finite_inputs
import proofs.«142208_g9019431321742_cont_sun_c4_46_17_alg».proof.Proof.KerValue
import proofs.«142208_g9019431321742_cont_sun_c4_46_17_alg».proof.Proof.RefRun
import proofs.«142208_g9019431321742_cont_sun_c4_46_17_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its reading at the ideal values. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- From memories that agree on the five arguments, the kernel's result array ends at the layer of the arguments, and so
    does the reference's: its result term is the layer of its own arguments, which are the kernel's. -/
theorem algebraic : Cert.algebraic_KernelIdeal_ReferenceIdeal := by
  intro m ρ m' ρ' _ hagree
  refine ⟨fun c => Cert.KernelIdeal.KerValue.result m c, Cert.KernelIdeal.KerValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.refOut_eq, (hagree c).1, (hagree c).2.1, (hagree c).2.2.1, (hagree c).2.2.2.1,
    (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
